-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S16384x512 .f32) (main_arg1 : FVec F S1024x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S16384x512 : Shape := ⟨2, ![16384, 512]⟩
abbrev S1024x512 : Shape := ⟨2, ![1024, 512]⟩
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1024, .f32⟩
  | .local _ .vmem, ⟨4, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x512_S1024x512_S16384x1024_1_1_0_0_n_n_wf : DotDims.WF S16384x512 S1024x512 S16384x1024 [1] [1] [0] [0] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf

class Facts : Prop extends Facts₀ where

variable [Facts]
-- ==== Proof.RbfSpec.lean ====
/-
  The radial basis layer as ONE function of its two argument arrays, over the extended reals.

  For a sample row `u` and a centre row `v` of 512 features each, the layer's value is
      exp (-1 · ((Σₖ uₖ² + Σₖ vₖ²) − 2 · Σₖ uₖ vₖ)),
  the Gaussian of the squared distance `‖u − v‖²` written by its expansion `‖u‖² + ‖v‖² − 2 u·v`. Entry `(b, o)` of the
  result depends on the arrays only through row `b` of the samples and row `o` of the centres, so the whole result is
  this one function of two rows, read at the two rows the index names. The constants `-1` and `2` are kept as the
  binary32 words both programs carry; nothing below evaluates them.
-/
import Idealize.ShloMosaic.PureOps.Ideal
import Idealize.ShloMosaic.Lib.ValueIdx

noncomputable section

namespace Cert.Rbf

open Idealize.ShloMosaic Idealize.ShloMosaic.ValueIdx

/-- Row `r` of an `[R, 512]` array: its 512 features. -/
def row (R : ℕ) (a : (⟨2, ![R, 512]⟩ : Shape).Idx → EReal) (r : Fin R) : Fin 512 → EReal := fun k => a (ix2 r k)

/-- The Gaussian from the three numbers it needs: with `a = ‖u‖²`, `b = ‖v‖²` and `m = u · v` it is
    `exp (-1 · ((a + b) − 2 · m))`, the constants being the binary32 words of `-1` and `2`. -/
def gaussOf (a b m : EReal) : EReal :=
  Ideal.exp (Ideal.ofBits .f32 0xBF800000#32 * ((a + b) - Ideal.ofBits .f32 0x40000000#32 * m))

/-- The Gaussian of the squared distance between a sample row `u` and a centre row `v`, the squared distance written as
    `(‖u‖² + ‖v‖²) − 2 · (u · v)`. -/
def rbfRows (u v : Fin 512 → EReal) : EReal :=
  gaussOf (∑ k : Fin 512, u k * u k) (∑ k : Fin 512, v k * v k) (∑ k : Fin 512, u k * v k)

/-- The layer's whole result: at `(b, o)` the Gaussian of sample row `b` against centre row `o`. -/
def rbf (x : (⟨2, ![16384, 512]⟩ : Shape).Idx → EReal) (c : (⟨2, ![1024, 512]⟩ : Shape).Idx → EReal) :
    (⟨2, ![16384, 1024]⟩ : Shape).Idx → EReal :=
  fun i => rbfRows (row 16384 x (i 0)) (row 1024 c (i 1))

/-- The result at an index written by its coordinates. -/
theorem rbf_ix2 (x : (⟨2, ![16384, 512]⟩ : Shape).Idx → EReal) (c : (⟨2, ![1024, 512]⟩ : Shape).Idx → EReal)
    (b : Fin 16384) (o : Fin 1024) : rbf x c (ix2 b o) = rbfRows (row 16384 x b) (row 1024 c o) := rfl

end Cert.Rbf

end
-- ==== Proof.RbfReference.lean ====
/-
  The reference computes the radial basis layer of the specification.

  Read one operation at a time, the reference's result at `(b, o)` is `exp` of `-1` times
  `((0 + Σₖ x[b,k]²) + (0 + Σₖ c[o,k]²)) − 2 · Σₖ x[b,k] · c[o,k]`: the two row sums start from the additive zero,
  which disappears, and the composed index maps of the layout operations (a vector made a column or a row, then spread
  over the matrix) name row `b` of the samples and row `o` of the centres. What is left is the specification's
  function of those two rows, term for term.
-/
import proofs.«138059_j65481071401981_1_alg».proof.Proof.Gen.ReferenceIdeal.Read
import proofs.«138059_j65481071401981_1_alg».proof.Proof.RbfSpec
import Idealize.ShloMosaic.PureOps.Ideal.Laws

noncomputable section

namespace Cert.Rbf.Reference

open Cert.ReferenceIdeal Cert.ReferenceIdeal.Gen Cert.ReferenceIdeal.Read
open Idealize.ShloMosaic Idealize.ShloMosaic.ValueIdx

/-- Through the column cast and the spread over the matrix, the squared norm read at `(b, o)` sums row `b` of the samples. -/
theorem sampleRow_idx (i : S16384x1024.Idx) (k : Fin 512) :
    idx_main_v1 (idx_main_v2 (idx_main_v7 i)) k = ix2 (i 0) k :=
  funext fun a => Fin.ext (by match a with | ⟨0, _⟩ => rfl | ⟨1, _⟩ => rfl)

/-- Through the row cast and the spread over the matrix, the squared norm read at `(b, o)` sums row `o` of the centres. -/
theorem centreRow_idx (i : S16384x1024.Idx) (k : Fin 512) :
    idx_main_v4 (idx_main_v5 (idx_main_v8 i)) k = ix2 (i 1) k :=
  funext fun a => Fin.ext (by match a with | ⟨0, _⟩ => rfl | ⟨1, _⟩ => rfl)

/-- The inner product at `(b, o)` pairs feature `k` of sample row `b` … -/
theorem crossSample_idx (i : S16384x1024.Idx) (k : Fin 512) : lidx_main_v6 i k = ix2 (i 0) k :=
  funext fun a => Fin.ext (by match a with | ⟨0, _⟩ => rfl | ⟨1, _⟩ => rfl)

/-- … with feature `k` of centre row `o`. -/
theorem crossCentre_idx (i : S16384x1024.Idx) (k : Fin 512) : ridx_main_v6 i k = ix2 (i 1) k :=
  funext fun a => Fin.ext (by match a with | ⟨0, _⟩ => rfl | ⟨1, _⟩ => rfl)

/-- The reference's last stage is the specification's function of the two argument arrays. -/
theorem result_eq (x : (⟨S16384x512, .f32⟩ : BufTy).Contents (Elt Ideal)) (c : (⟨S1024x512, .f32⟩ : BufTy).Contents (Elt Ideal)) :
    val_main_v15 (F := Ideal) x c = Cert.Rbf.rbf x c := by
  funext i
  rw [val_main_v15_apply, val_main_v14_apply, val_main_v13_apply, val_main_cst_2_apply, val_main_v12_apply,
    val_main_v9_apply, val_main_v7_apply, val_main_v2_apply, val_main_v1_apply, val_main_v8_apply, val_main_v5_apply,
    val_main_v4_apply, val_main_v11_apply, val_main_v10_apply, val_main_cst_1_apply, val_main_v6_apply]
  simp only [val_main_cst_apply, val_main_cst_0_apply, val_main_v0_apply, val_main_v3_apply, sampleRow_idx, centreRow_idx,
    crossSample_idx, crossCentre_idx, Ideal.hostUnary_exp_def, Ideal.mulf_def, Ideal.subf_def, Ideal.addf_def,
    Ideal.ofBits_def, Ideal.ofBits_zero_f32, zero_add]
  rfl

end Cert.Rbf.Reference

end
-- ==== Proof.LibColumnLayout.lean ====
/-
  A vector laid out as a column, and a column spread across a matrix, each read at an index given by coordinates.

  A sum over the last axis of an `[a, n]` array that keeps that axis (`keepdims`) is a length-`a` vector cast to an
  `[a, 1]` column; added to an `[a, b]` matrix, the column is broadcast along the second axis, so that entry `(p, c)`
  of the result is the vector's entry `p` whatever the column `c`. The two reads below name the operand's index by
  coordinates (`ix1`, `ix2`), so that they apply to a written-out operation by unification. They are the column
  counterparts of the row forms `[a] → [1, a]` and `[1, b] → [a, b]`.
-/
import Idealize.ShloMosaic.Lib.Pipeline.Value
import Idealize.ShloMosaic.Lib.ValueIdx

namespace Cert.ColumnLayout

open Idealize.ShloMosaic Idealize.ShloMosaic.ValueIdx

variable {α : Type}

/-- An `[a]` vector cast to an `[a, 1]` column reads, at `(i, u)`, the vector at `i`, whatever the unit coordinate
    `u`: in row-major order the position of `(i, u)` in `[a, 1]` is `i * 1 + 0 = i`, the position of `i` in `[a]`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the row coordinate is
    kept (when `a = 1` it is `0` anyway) and the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.RbfBody.lean ====
/-
  What the kernel's body computes for one block of 1024 sample rows, at an entry of its 1024 × 1024 result.

  The body holds a block `x0` of sample rows and the whole table `x1` of centre rows. Entry `(p, q)` of what it stores is
  the Gaussian of three numbers: the lane sum of `x0²` at row `p` (a vector, made a column, spread along the rows of the
  result), the lane sum of `x1²` at row `q` (a vector, made a row, spread down the columns), and the matrix product of
  the two blocks contracted over the feature axis of BOTH, which at `(p, q)` is `Σₖ x0[p,k] · x1[q,k]`. Over the extended
  reals the narrowing of the product's operands to a shorter format changes nothing and the product into a zero
  accumulator is the plain sum, so the entry is the specification's function of row `p` of `x0` and row `q` of `x1`.
-/
import proofs.«138059_j65481071401981_1_alg».proof.Proof.Gen.KernelIdeal.Skeleton
import proofs.«138059_j65481071401981_1_alg».proof.Proof.RbfSpec
import proofs.«138059_j65481071401981_1_alg».proof.Proof.LibColumnLayout
import Idealize.ShloMosaic.Lib.ValueLayout
import Idealize.ShloMosaic.PureOps.Ideal.Laws

noncomputable section

namespace Cert.Rbf.Body

open Cert.KernelIdeal Cert.KernelIdeal.Gen
open Idealize.ShloMosaic Idealize.ShloMosaic.ValueIdx Cert.ColumnLayout

/-- The lane sum of a `[1024, 512]` block at row `r` is the sum of that row's 512 entries. -/
theorem laneSum_apply (v : FVec Ideal S1024x512 .f32) (r : Fin 1024) :
    multiReduction .add [1] S1024 v 0x00000000#32 reduces_S1024x512_S1024 (.inl rfl) rfl (ix1 r) = ∑ k : Fin 512, v (ix2 r k) := by
  refine (Ideal.multiReduction_add_single v 0x00000000#32 reduces_S1024x512_S1024 (.inl rfl) rfl (ix1 r)).trans ?_
  refine Finset.sum_congr rfl fun k _ => congrArg v (funext fun a => Fin.ext ?_)
  match a with
  | ⟨0, _⟩ => rfl
  | ⟨1, _⟩ => rfl

/-- The row sums made a column and spread along the rows of the result: entry `(p, q)` is the sum of row `p`. -/
theorem sampleNorm_apply (v : FVec Ideal S1024x512 .f32) (p q : Fin 1024) :
    broadcastTo S1024x1024 (shapeCast S1024x1 (multiReduction .add [1] S1024 v 0x00000000#32 reduces_S1024x512_S1024 (.inl rfl) rfl)
      shapeCasts_S1024_S1024x1) broadcasts_S1024x1_S1024x1024 (ix2 p q) = ∑ k : Fin 512, v (ix2 p k) :=
  (broadcastTo_a1_ab_apply _ broadcasts_S1024x1_S1024x1024 p q).trans
    ((shapeCast_a_a1_apply _ shapeCasts_S1024_S1024x1 p 0).trans (laneSum_apply v p))

/-- The row sums made a row and spread down the columns of the result: entry `(p, q)` is the sum of row `q`. -/
theorem centreNorm_apply (v : FVec Ideal S1024x512 .f32) (p q : Fin 1024) :
    broadcastTo S1024x1024 (shapeCast S1x1024 (multiReduction .add [1] S1024 v 0x00000000#32 reduces_S1024x512_S1024 (.inl rfl) rfl)
      shapeCasts_S1024_S1x1024) broadcasts_S1x1024_S1024x1024 (ix2 p q) = ∑ k : Fin 512, v (ix2 q k) :=
  (broadcastTo_1b_ab_apply _ broadcasts_S1x1024_S1024x1024 p q).trans
    ((shapeCast_a_1a_apply _ shapeCasts_S1024_S1x1024 0 q).trans (laneSum_apply v q))

/-! The matrix product contracts axis 1 of both operands; its left operand is read at (row of the result, `k`) and its
    right operand at (column of the result, `k`). -/

theorem lhs_cross_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_cross_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_cross_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_cross_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of two `[1024, 512]` blocks over their feature axes, into a zero accumulator: entry `(p, q)` is the inner
    product of row `p` of the left block with row `q` of the right one. -/
theorem cross_apply (a b : FVec Ideal S1024x512 .bf16) (p q : Fin 1024) :
    matmul dot_S1024x512_S1024x512_S1024x1024_1_1_0_0_n_n none a b (constant S1024x1024 .f32 0x00000000#32) (ix2 p q)
      = ∑ k : Fin 512, a (ix2 p k) * b (ix2 q k) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun a => Fin.ext (by
    match a with
    | ⟨0, _⟩ => exact lhs_cross_0 _ _
    | ⟨1, _⟩ => exact (lhs_cross_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun a => Fin.ext (by
    match a with
    | ⟨0, _⟩ => exact rhs_cross_0 _ _
    | ⟨1, _⟩ => exact (rhs_cross_1 _ _).trans hk)
  rw [el, er]

/-- THE BODY AT AN ENTRY: what the body stores at `(p, q)` is the Gaussian of row `p` of its sample block against row
    `q` of its centre block. The pointwise operations are read entry by entry; the three that are not — the two spread
    row sums and the matrix product — are the lemmas above. -/
theorem body_apply (x0 x1 : Vec Ideal S1024x512 .f32) (p q : Fin 1024) :
    k0_pay1 (F := Ideal) x0 x1 (ix2 p q) = rbfRows (row 1024 x0 p) (row 1024 x1 q) := by
  unfold k0_pay1
  exact congr (congr (congrArg gaussOf (sampleNorm_apply (mulf x0 x0) p q)) (centreNorm_apply (mulf x1 x1) p q))
    (cross_apply (truncf .bf16 x0 bitsLt_bf16_f32) (truncf .bf16 x1 bitsLt_bf16_f32) p q)

end Cert.Rbf.Body

end
-- ==== Proof.RbfBlocks.lean ====
/-
  From the kernel's 16 grid points to its whole result array.

  Point `t` of the grid works on sample rows `1024·t … 1024·t + 1023` (window 0's block `t`) against ALL the centre rows
  (window 1 has one block, the whole table) and writes rows `1024·t … 1024·t + 1023` of the result (window 2's block
  `t`, all 1024 columns). So entry `(p, q)` of what point `t` writes back is the Gaussian of sample row `1024·t + p`
  against centre row `q`: the specification's array read through block `t`. Row `r` of the result lies in the block of
  point `r / 1024`, so the 16 blocks cover the array, and after the run the array is the specification's.
-/
import proofs.«138059_j65481071401981_1_alg».proof.Proof.Gen.KernelIdeal.Value
import proofs.«138059_j65481071401981_1_alg».proof.Proof.RbfBody

noncomputable section

namespace Cert.Rbf.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's accesses all start at the origin of their buffers. -/
theorem origin_eq : (![0, 0] : Fin 2 → Nat) = fun _ => 0 :=
  funext fun a => match a with | ⟨0, _⟩ => rfl | ⟨1, _⟩ => rfl

/-- The three index maps over the 16 points: the sample window and the result window are at block row `t`, block
    column `0`; the centre window stays at block `(0, 0)`. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the specification's array of the arguments as the region finds them:
    entry `(p, q)` of the body's result is the Gaussian of row `p` of the sample block, which is row `1024·t + p` of the
    samples, against row `q` of the centre block, which is row `q` of the centres; and `(p, q)` of the result block is
    `(1024·t + p, q)` of the result array. -/
theorem flushed_eq (c : Dev nD) (t : Fin cfg0.N) :
    (dats m 0 c).flushed 2 t
      = ((cfg0.win 2).blk t).view.read (Elt Ideal) (rbf (V m c main_arg0) (V m c main_arg1)) := by
  rw [Value.flushed2]
  unfold out0_2
  rw [View.canon_unit_zero origin_eq]
  simp only [View.ld_unit_zero (S := S1024x512) origin_eq]
  obtain ⟨e00, e01, e10, e11, e20, e21⟩ := blockIdx t
  funext j
  obtain ⟨p, q, rfl⟩ : ∃ (p : Fin 1024) (q : Fin 1024), j = ix2 p q := ⟨j 0, j 1, eq_ix2 j⟩
  show k0_pay1 (F := Ideal) (iblk m c 0 t) (iblk m c 1 t) (ix2 p q)
    = rbf (V m c main_arg0) (V m c main_arg1) (((cfg0.win 2).blk t).view.emb (ix2 p q))
  refine (Body.body_apply (iblk m c 0 t) (iblk m c 1 t) p q).trans ?_
  have hs : row 1024 (iblk m c 0 t) p = row 16384 (V m c main_arg0) ((((cfg0.win 2).blk t).view.emb (ix2 p q)) 0) :=
    funext fun k => by
      show V m c main_arg0 (((cfg0.win 0).blk t).view.emb (ix2 p k)) = V m c main_arg0 (ix2 ((((cfg0.win 2).blk t).view.emb (ix2 p q)) 0) k)
      refine congrArg (V m c main_arg0) (funext fun a => Fin.ext ?_)
      match a with
      | ⟨0, _⟩ => show win0_0.index t (0 : Fin 2) * 1024 + 1 * p.val = win0_2.index t (0 : Fin 2) * 1024 + 1 * p.val; omega
      | ⟨1, _⟩ => show win0_0.index t (1 : Fin 2) * 512 + 1 * k.val = k.val; omega
  have hc : row 1024 (iblk m c 1 t) q = row 1024 (V m c main_arg1) ((((cfg0.win 2).blk t).view.emb (ix2 p q)) 1) :=
    funext fun k => by
      show V m c main_arg1 (((cfg0.win 1).blk t).view.emb (ix2 q k)) = V m c main_arg1 (ix2 ((((cfg0.win 2).blk t).view.emb (ix2 p q)) 1) k)
      refine congrArg (V m c main_arg1) (funext fun a => Fin.ext ?_)
      match a with
      | ⟨0, _⟩ => show win0_1.index t (0 : Fin 2) * 1024 + 1 * q.val = win0_2.index t (1 : Fin 2) * 1024 + 1 * q.val; omega
      | ⟨1, _⟩ => show win0_1.index t (1 : Fin 2) * 512 + 1 * k.val = k.val; omega
  exact congr (congrArg rbfRows hs) hc

/-- An index of the result array is in point `t`'s block iff each coordinate is in the block's range on its axis. -/
theorem mem_block (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: row `r` of the result is written by point `r / 1024`, whose block spans all 1024 columns. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 16 := N_0
  have ht : (i 0).val / 1024 < grid0.N := by rw [hN]; omega
  obtain ⟨-, -, -, -, e20, e21⟩ := blockIdx ⟨(i 0).val / 1024, ht⟩
  have e20' : win0_2.index ⟨(i 0).val / 1024, ht⟩ (0 : Fin 2) = (i 0).val / 1024 := e20
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    omega

/-- THE ARRAY after the run is the specification's function of the two argument arrays. -/
theorem final (c : Dev nD) :
    (dats m 0 c).arrAt 2 cfg0.N = rbf (m ((c : Thread nD τ).loc main_arg0)) (m ((c : Thread nD τ).loc main_arg1)) :=
  (dats m 0 c).arrAt_eq_of_cover 2 (rbf (V m c main_arg0) (V m c main_arg1)) (fun t _ => flushed_eq m c t) cover

/-- The kernel's run: every execution ends with the result array at the specification's function of the arguments, the
    arguments unchanged. -/
theorem run : θ_run defs (onTc (τ := τ) (main (F := Ideal))) ⟨m, fun _ => 0, ρ⟩ fun r => ∀ c : Dev nD,
      r.2.mem ((c : Thread nD τ).loc main_v0) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Rbf.Blocks

end
-- ==== Proof.lean ====
/-
  The radial basis layer `exp (-(‖x‖² + ‖c‖² − 2 x·c))`: a kernel that works on 1024 sample rows per grid point against the
  whole table of centres, and the plain array program it is compared with.

  Both programs compute the squared distance by the same expansion, with the same constants, in the same order; they
  differ only in how the work is laid out. The kernel takes its row sums along the lanes of a block and spreads them as a
  column and as a row, where the reference reduces and broadcasts whole arrays; the kernel multiplies the blocks on the
  matrix unit after narrowing them to a shorter format, where the reference contracts the arrays directly. Over the
  extended reals a narrowing is the identity, a matrix product into a zero accumulator is the plain sum of products, and
  a row sum from zero is the sum, so both results are ONE function of the two argument arrays
  (`Cert.Rbf.rbf`): at `(b, o)` the Gaussian of sample row `b` against centre row `o`. No law of the extended reals
  beyond `0 + s = s` is used, so the finiteness of the inputs is never opened.

  The modules: `RbfSpec` (the function), `RbfReference` (the reference's stages compose to it), `RbfBody` (the kernel
  body's stored value at an entry of a block), `RbfBlocks` (what each grid point writes back is a block of it, the blocks
  cover the array), `LibColumnLayout` (a vector as a column, a column spread over a matrix, read at an index).
  Each program's termination and the preservation of its arguments are the generated frames; the reference's is its
  generated run with the result dropped. The idealization rewrote nothing, so `preserves` has nothing to state.
-/
import proofs.«138059_j65481071401981_1_alg».proof.Defs
import proofs.«138059_j65481071401981_1_alg».proof.Proof.Gen.Kernel
import proofs.«138059_j65481071401981_1_alg».proof.Proof.Gen.Kernel.Skeleton
import proofs.«138059_j65481071401981_1_alg».proof.Proof.Gen.Kernel.Launch
import proofs.«138059_j65481071401981_1_alg».proof.Proof.Gen.Kernel.Points
import proofs.«138059_j65481071401981_1_alg».proof.Proof.Gen.Kernel.Frame
import proofs.«138059_j65481071401981_1_alg».proof.Proof.Gen.KernelIdeal
import proofs.«138059_j65481071401981_1_alg».proof.Proof.Gen.KernelIdeal.Skeleton
import proofs.«138059_j65481071401981_1_alg».proof.Proof.Gen.KernelIdeal.Launch
import proofs.«138059_j65481071401981_1_alg».proof.Proof.Gen.KernelIdeal.Points
import proofs.«138059_j65481071401981_1_alg».proof.Proof.Gen.KernelIdeal.Frame
import proofs.«138059_j65481071401981_1_alg».proof.Proof.Gen.ReferenceIdeal
import proofs.«138059_j65481071401981_1_alg».proof.Proof.Gen.Pre_finite_inputs
import proofs.«138059_j65481071401981_1_alg».proof.Proof.Gen.KernelIdeal.Value
import proofs.«138059_j65481071401981_1_alg».proof.Proof.Gen.ReferenceIdeal.Run
import proofs.«138059_j65481071401981_1_alg».proof.Proof.Gen.ReferenceIdeal.Read
import proofs.«138059_j65481071401981_1_alg».proof.Proof.RbfReference
import proofs.«138059_j65481071401981_1_alg».proof.Proof.RbfBlocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the samples and the centres, the kernel's result array and the reference's are both the
    radial basis layer of those two arrays: the kernel's by its blocks (`Cert.Rbf.Blocks.run`), the reference's by its
    stages (`Cert.Rbf.Reference.result_eq`). -/
theorem algebraic : Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Rbf.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
